-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x30 : Shape := ⟨2, ![4194304, 30]⟩
abbrev S4194304 : Shape := ⟨1, ![4194304]⟩
abbrev S30x30 : Shape := ⟨2, ![30, 30]⟩
abbrev S_ : Shape := ⟨0, ![]⟩

class Facts : Prop where
  bcast_S_S4194304x30 : S_.BroadcastsInDim S4194304x30 (![] : Fin 0 → Fin S4194304x30.rank)
  reducesTo_S4194304x30_S_d0_1 : S4194304x30.ReducesTo [0, 1] S_
  h_S_ : 0 < S_.numel
  bcast_S_S30x30 : S_.BroadcastsInDim S30x30 (![] : Fin 0 → Fin S30x30.rank)
  reducesTo_S30x30_S_d0_1 : S30x30.ReducesTo [0, 1] S_
  bcast_S_S4194304 : S_.BroadcastsInDim S4194304 (![] : Fin 0 → Fin S4194304.rank)
  reducesTo_S4194304_S_d0 : S4194304.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4194304x30 .f32) (main_arg1 : IVec S4194304 32) (main_arg2 : FVec F S30x30 .f32) : IVec S_ 1 :=
  let main_v0 : FVec F S4194304x30 .f32 := Host.absf main_arg0
  let main_cst : FVec F S_ .f32 := constant S_ .f32 0x7F800000#32
  let main_v1 : FVec F S4194304x30 .f32 := broadcastInDim S4194304x30 ![] bcast_S_S4194304x30 main_cst
  let main_v2 : IVec S4194304x30 1 := cmpf .olt main_v0 main_v1
  let main_c : IVec S_ 1 := constantI S_ 1 1#1
  let main_v3 : IVec S_ 1 := (fun x v => Host.reduce IntOp.andi x v reducesTo_S4194304x30_S_d0_1 h_S_) main_v2 main_c
  let main_v4 : FVec F S30x30 .f32 := Host.absf main_arg2
  let main_cst_0 : FVec F S_ .f32 := constant S_ .f32 0x7F800000#32
  let main_v5 : FVec F S30x30 .f32 := broadcastInDim S30x30 ![] bcast_S_S30x30 main_cst_0
  let main_v6 : IVec S30x30 1 := cmpf .olt main_v4 main_v5
  let main_c_1 : IVec S_ 1 := constantI S_ 1 1#1
  let main_v7 : IVec S_ 1 := (fun x v => Host.reduce IntOp.andi x v reducesTo_S30x30_S_d0_1 h_S_) main_v6 main_c_1
  let main_v8 : IVec S_ 1 := andi main_v3 main_v7
  let main_c_2 : IVec S_ 32 := constantI S_ 32 0#32
  let main_v9 : IVec S4194304 32 := broadcastInDim S4194304 ![] bcast_S_S4194304 main_c_2
  let main_v10 : IVec S4194304 1 := cmpi .sge main_arg1 main_v9
  let main_c_3 : IVec S_ 1 := constantI S_ 1 1#1
  let main_v11 : IVec S_ 1 := (fun x v => Host.reduce IntOp.andi x v reducesTo_S4194304_S_d0 h_S_) main_v10 main_c_3
  let main_v12 : IVec S_ 1 := andi main_v8 main_v11
  let main_c_4 : IVec S_ 32 := constantI S_ 32 30#32
  let main_v13 : IVec S4194304 32 := broadcastInDim S4194304 ![] bcast_S_S4194304 main_c_4
  let main_v14 : IVec S4194304 1 := cmpi .slt main_arg1 main_v13
  let main_c_5 : IVec S_ 1 := constantI S_ 1 1#1
  let main_v15 : IVec S_ 1 := (fun x v => Host.reduce IntOp.andi x v reducesTo_S4194304_S_d0 h_S_) main_v14 main_c_5
  fn_part1 (F := F) main_v12 main_v15
-- ==== Kernel.lean ====
abbrev S4194304x30 : Shape := ⟨2, ![4194304, 30]⟩
abbrev S4194304 : Shape := ⟨1, ![4194304]⟩
abbrev S30x30 : Shape := ⟨2, ![30, 30]⟩
abbrev S4194304x1 : Shape := ⟨2, ![4194304, 1]⟩
abbrev S2x1x1 : Shape := ⟨3, ![2, 1, 1]⟩
abbrev S8192x30 : Shape := ⟨2, ![8192, 30]⟩
abbrev S8192x1 : Shape := ⟨2, ![8192, 1]⟩
abbrev S1x1x1 : Shape := ⟨3, ![1, 1, 1]⟩
abbrev S1x1 : Shape := ⟨2, ![1, 1]⟩
abbrev S8192 : Shape := ⟨1, ![8192]⟩
abbrev S1 : Shape := ⟨1, ![1]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S4194304x30, .f32⟩
  | .hbm, ⟨1, _⟩ => ⟨S4194304, .i32⟩
  | .hbm, ⟨2, _⟩ => ⟨S30x30, .f32⟩
  | .hbm, ⟨3, _⟩ => ⟨S4194304x1, .i32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8192x30, .f32⟩
  | .local _ .vmem, ⟨1, _⟩ => ⟨S8192x30, .f32⟩
  | .local _ .vmem, ⟨2, _⟩ => ⟨S8192x1, .i32⟩
  | .local _ .vmem, ⟨3, _⟩ => ⟨S8192x1, .i32⟩
  | .local _ .vmem, ⟨4, _⟩ => ⟨S30x30, .f32⟩
  | .local _ .vmem, ⟨5, _⟩ => ⟨S1x1x1, .f32⟩
  | .local _ .vmem, ⟨6, _⟩ => ⟨S1x1x1, .f32⟩
  | .local _ .vmem, ⟨7, _⟩ => ⟨S1x1, .f32⟩
  | _, _ => ⟨S4194304x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 256], ![false, false]⟩

def k0_cond2 (i : grid0.Coords) : BitVec 1 :=
  let arg1 : BitVec 32 := BitVec.ofNat 32 (i 1).val
  let c255_i32 : BitVec 32 := 255#32
  let v41 : BitVec 1 := Scalar.cmpi .eq arg1 c255_i32
  let v42 : BitVec 32 := Scalar.extui v41
  let c0_i32_18 : BitVec 32 := 0#32
  let v43 : BitVec 1 := Scalar.cmpi .ne v42 c0_i32_18
  v43

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S30x30 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4194304_S4194304x1 : S4194304.ShapeCasts S4194304x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x30_S8192x30_0_0 : ∀ a, (![0, 0] : Fin 2 → Nat) a + S8192x30.size a ≤ S8192x30.size a
  h_S8192x30 : 0 < S8192x30.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  reduces_S8192x30_S8192 : S8192x30.Reduces [1] S8192
  shapeCasts_S8192_S8192x1 : S8192.ShapeCasts S8192x1
  broadcasts_S8192x1_S8192x30 : S8192x1.Broadcasts S8192x30
  iota_S8192x30_d1_w32 : S8192x30.Iotas .tc 32 [1]
  natLt_1_32 : 1 < 32
  inb_S30x30_S30x30_0_0 : ∀ a, (![0, 0] : Fin 2 → Nat) a + S30x30.size a ≤ S30x30.size a
  h_S30x30 : 0 < S30x30.numel
  reduces_S8192x1_S1 : S8192x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  dot_S8192x30_S30x30_S8192x30_1_0_0_1_n_n_wf : DotDims.WF S8192x30 S30x30 S8192x30 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x30.size a ≤ S4194304x30.size a
  hwx0_0 : ∀ i : grid0.Coords, EltTy.bits .f32 = 32 ∨ (Rect.block (s := S4194304x30) S8192x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S4194304x1.size a
  hwx0_1 : ∀ i : grid0.Coords, EltTy.bits .i32 = 32 ∨ (Rect.block (s := S4194304x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S30x30.size a ≤ S30x30.size a
  hwx0_2 : ∀ i : grid0.Coords, EltTy.bits .f32 = 32 ∨ (Rect.block (s := S30x30) S30x30.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def dot_S8192x30_S30x30_S8192x30_1_0_0_1_n_n : DotDims S8192x30 S30x30 S8192x30 where
  lhsContracting := [1]
  rhsContracting := [0]
  lhsNonContracting := [0]
  rhsNonContracting := [1]
  lhsBatch := []
  rhsBatch := []
  wf := dot_S8192x30_S30x30_S8192x30_1_0_0_1_n_n_wf

abbrev win0_0 : Pipeline.Window sig grid0 :=
  Pipeline.Window.ofSpec (Memref.whole main_arg0) S8192x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S30x30.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4194304x30 : Shape := ⟨2, ![4194304, 30]⟩
abbrev S4194304 : Shape := ⟨1, ![4194304]⟩
abbrev S30x30 : Shape := ⟨2, ![30, 30]⟩
abbrev S_ : Shape := ⟨0, ![]⟩
abbrev S4194304x1 : Shape := ⟨2, ![4194304, 1]⟩

abbrev nBuf : Space → Nat
  | .hbm => 46
  | .vmem => 0
  | .smem => 0
  | _ => 0

abbrev bufTy : (tb : Table) → Fin (tcTables nBuf tb) → BufTy
  | .hbm, ⟨0, _⟩ => ⟨S4194304x30, .f32⟩
  | .hbm, ⟨1, _⟩ => ⟨S4194304, .i32⟩
  | .hbm, ⟨2, _⟩ => ⟨S30x30, .f32⟩
  | .hbm, ⟨3, _⟩ => ⟨S_, .f32⟩
  | .hbm, ⟨4, _⟩ => ⟨S4194304, .f32⟩
  | .hbm, ⟨5, _⟩ => ⟨S_, .f32⟩
  | .hbm, ⟨6, _⟩ => ⟨S4194304, .f32⟩
  | .hbm, ⟨7, _⟩ => ⟨S4194304, .f32⟩
  | .hbm, ⟨8, _⟩ => ⟨S4194304x1, .f32⟩
  | .hbm, ⟨9, _⟩ => ⟨S4194304x30, .f32⟩
  | .hbm, ⟨10, _⟩ => ⟨S4194304x30, .f32⟩
  | .hbm, ⟨11, _⟩ => ⟨S4194304x30, .f32⟩
  | .hbm, ⟨12, _⟩ => ⟨S_, .f32⟩
  | .hbm, ⟨13, _⟩ => ⟨S4194304, .f32⟩
  | .hbm, ⟨14, _⟩ => ⟨S4194304x1, .f32⟩
  | .hbm, ⟨15, _⟩ => ⟨S4194304x1, .f32⟩
  | .hbm, ⟨16, _⟩ => ⟨S4194304x30, .f32⟩
  | .hbm, ⟨17, _⟩ => ⟨S4194304x30, .f32⟩
  | .hbm, ⟨18, _⟩ => ⟨S_, .i32⟩
  | .hbm, ⟨19, _⟩ => ⟨S4194304, .i32⟩
  | .hbm, ⟨20, _⟩ => ⟨S4194304, .i1⟩
  | .hbm, ⟨21, _⟩ => ⟨S_, .i32⟩
  | .hbm, ⟨22, _⟩ => ⟨S_, .i32⟩
  | .hbm, ⟨23, _⟩ => ⟨S4194304, .i32⟩
  | .hbm, ⟨24, _⟩ => ⟨S4194304, .i32⟩
  | .hbm, ⟨25, _⟩ => ⟨S_, .i32⟩
  | .hbm, ⟨26, _⟩ => ⟨S4194304, .i32⟩
  | .hbm, ⟨27, _⟩ => ⟨S4194304, .i1⟩
  | .hbm, ⟨28, _⟩ => ⟨S_, .i32⟩
  | .hbm, ⟨29, _⟩ => ⟨S4194304, .i32⟩
  | .hbm, ⟨30, _⟩ => ⟨S4194304, .i32⟩
  | .hbm, ⟨31, _⟩ => ⟨S4194304, .i32⟩
  | .hbm, ⟨32, _⟩ => ⟨S4194304x1, .i32⟩
  | .hbm, ⟨33, _⟩ => ⟨S4194304x30, .f32⟩
  | .hbm, ⟨34, _⟩ => ⟨S4194304x30, .f32⟩
  | .hbm, ⟨35, _⟩ => ⟨S_, .f32⟩
  | .hbm, ⟨36, _⟩ => ⟨S4194304, .f32⟩
  | .hbm, ⟨37, _⟩ => ⟨S4194304, .f32⟩
  | .hbm, ⟨38, _⟩ => ⟨S_, .f32⟩
  | .hbm, ⟨39, _⟩ => ⟨S_, .f32⟩
  | .hbm, ⟨40, _⟩ => ⟨S4194304, .f32⟩
  | .hbm, ⟨41, _⟩ => ⟨S4194304, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S4194304x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_call1_v0 : Ref sig .tc := ⟨.hbm, 22, rfl⟩
abbrev main_call1_v1 : Ref sig .tc := ⟨.hbm, 23, rfl⟩
abbrev main_v3 : Ref sig .tc := ⟨.hbm, 24, rfl⟩
abbrev main_c_1 : Ref sig .tc := ⟨.hbm, 25, rfl⟩
abbrev main_v4 : Ref sig .tc := ⟨.hbm, 26, rfl⟩
abbrev main_v5 : Ref sig .tc := ⟨.hbm, 27, rfl⟩
abbrev main_c_2 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_call2_v0 : Ref sig .tc := ⟨.hbm, 39, rfl⟩
abbrev main_call2_v1 : Ref sig .tc := ⟨.hbm, 40, rfl⟩
abbrev main_v14 : Ref sig .tc := ⟨.hbm, 41, rfl⟩
abbrev main_cst_4 : Ref sig .tc := ⟨.hbm, 42, rfl⟩
abbrev main_v15 : Ref sig .tc := ⟨.hbm, 43, rfl⟩
abbrev main_cst_5 : Ref sig .tc := ⟨.hbm, 44, rfl⟩
abbrev main_v16 : Ref sig .tc := ⟨.hbm, 45, rfl⟩

abbrev nD : Nat := 1
abbrev τ : Topo := Topo.v7x

variable {F : FTy → Type} [FloatOps F]

class Facts₀ : Prop where
  reducesTo_S4194304x30_S4194304_d1 : S4194304x30.ReducesTo [1] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x30_0_1 : S4194304x1.BroadcastsInDim S4194304x30 (![0, 1] : Fin 2 → Fin S4194304x30.rank)
  reducesTo_S4194304_S_d0 : S4194304.ReducesTo [0] S_
  gather_S30x30_S4194304x1_S4194304x30_1_0_n_n_0_1_130_wf : GatherDims.WF S30x30 S4194304x1 S4194304x30 [1] [0] [] [0] [] 1 ![1, 30]

variable [Facts₀]

def gather_S30x30_S4194304x1_S4194304x30_1_0_n_n_0_1_130 : GatherDims S30x30 S4194304x1 S4194304x30 where
  offsetDims := [1]
  collapsedSliceDims := [0]
  operandBatchingDims := []
  startIndicesBatchingDims := []
  startIndexMap := [0]
  indexVectorDim := 1
  sliceSizes := ![1, 30]
  wf := gather_S30x30_S4194304x1_S4194304x30_1_0_n_n_0_1_130_wf

class Facts : Prop extends Facts₀ where

variable [Facts]
-- ==== Proof.LibTRef.lean ====
/-
  Typed references of a module-local function: moving a value to the buffer's own type and back is the identity.

  An operation of an outlined function is stated over references that carry the type of the tensor they hold; its
  function is moved to the buffer's own contents type along the equation of the two types (`toBuf`) and each operand
  is moved back (`ofBuf`). Reading a line of such operations leaves a pair `ofBuf (toBuf v)` around every
  intermediate value; the pair is the identity, whatever the reference.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, h1, h2⟩ := x
  rfl

/-- Back and to the buffer's type. -/
theorem toBuf_ofBuf (x : TRef sig T) (v : x.ref.ty.Contents Val) : x.toBuf (x.ofBuf v) = v := by
  obtain ⟨r, rfl, h1, h2⟩ := x
  rfl

end Idealize.ShloMosaic.StableHlo.TRef
-- ==== Proof.Pieces.lean ====
/-
  What one grid point leaves behind, as values. The kernel keeps a one-element running sum in a scratch cell. At the
  first tile of a core's row range it stores zero there and then adds the tile's partial sum; at every other tile it
  adds the tile's partial sum to what the tile before left; at the last tile it also copies the cell into the output
  block. Each statement below reads the stores of one of these three cases back as one value: the tile's update
  applied to the cell's previous contents (zero at a first tile).
-/
import proofs.«411149_j26903675142293_2_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic Idealize.SL.Sem Cert.KernelIdeal Cert.KernelIdeal.Gen

variable {F : FTy → Type} [FloatOps F]

theorem off2 : (![0, 0] : Fin 2 → Nat) = fun _ => 0 := by
  funext a; fin_cases a <;> rfl
theorem off3 : (![0, 0, 0] : Fin 3 → Nat) = fun _ => 0 := by
  funext a; fin_cases a <;> rfl

/-- A first tile: the cell is zeroed, read back, and the tile's update of that zero is stored. -/
theorem sout_A (c : Dev nD) (i : grid0.Coords) (arg2 : Memref sig .tc .vmem S8192x30 .f32) (harg2 : arg2.IsWhole) (arg3 : Memref sig .tc .vmem S8192x1 .i32) (harg3 : arg3.IsWhole) (arg4 : Memref sig .tc .vmem S30x30 .f32) (harg4 : arg4.IsWhole) (arg5 : Memref sig .tc .vmem S1x1x1 .f32) (harg5 : arg5.IsWhole) (hc0 : cond0_0 i) (hc1 : ¬cond0_1 i)
    (x0 : Vec F S8192x30 .f32) (x1 : Vec F S8192x1 .i32) (x2 : Vec F S30x30 .f32) :
    sout0_A_0 c i arg2 harg2 arg3 harg3 arg4 harg4 arg5 harg5 scM0_0 (Memref.isWhole_whole _) hc0 hc1 x0 x1 x2
      = k0_pay1 (k0_pay4 x0 x1 x2 (k0_pay3 (F := F))) := by
  unfold sout0_A_0
  rw [View.read_writes_eq_canon _ _ _ (scover0_A_0 c i arg2 harg2 arg3 harg3 arg4 harg4 arg5 harg5 scM0_0 (Memref.isWhole_whole _) hc0 hc1 x0 x1 x2)]
  unfold kernelRun0_A
  dsimp only
  sl_unfold_words
  rw [View.canon_cons_unit_zero (S := S1x1) off2]
  simp only [View.readAt_eq_ld, Memref.IsWhole.read_unread, View.ld_unit_zero (S := S8192x30) off2,
    View.ld_unit_zero (S := S8192x1) off2, View.ld_unit_zero (S := S30x30) off2,
    View.readCov_unit_zero (S := S1x1) _ off2]

/-- A middle tile: the tile's update of what the tile before left. -/
theorem sout_B (c : Dev nD) (i : grid0.Coords) (arg2 : Memref sig .tc .vmem S8192x30 .f32) (harg2 : arg2.IsWhole) (arg3 : Memref sig .tc .vmem S8192x1 .i32) (harg3 : arg3.IsWhole) (arg4 : Memref sig .tc .vmem S30x30 .f32) (harg4 : arg4.IsWhole) (arg5 : Memref sig .tc .vmem S1x1x1 .f32) (harg5 : arg5.IsWhole) (hc0 : ¬cond0_0 i) (hc1 : ¬cond0_1 i)
    (x0 : Vec F S8192x30 .f32) (x1 : Vec F S8192x1 .i32) (x2 : Vec F S30x30 .f32) (xs0 : Vec F S1x1 .f32) :
    sout0_B_0 c i arg2 harg2 arg3 harg3 arg4 harg4 arg5 harg5 scM0_0 (Memref.isWhole_whole _) hc0 hc1 x0 x1 x2 xs0
      = k0_pay1 (k0_pay4 x0 x1 x2 xs0) := by
  unfold sout0_B_0
  rw [View.read_writes_eq_canon _ _ _ (scover0_B_0 c i arg2 harg2 arg3 harg3 arg4 harg4 arg5 harg5 scM0_0 (Memref.isWhole_whole _) hc0 hc1 x0 x1 x2 xs0)]
  unfold kernelRun0_B
  dsimp only
  sl_unfold_words
  rw [View.canon_unit_zero (S := S1x1) off2]
  simp only [View.readAt_eq_ld, Memref.IsWhole.read_unread, View.ld_unit_zero (S := S8192x30) off2,
    View.ld_unit_zero (S := S8192x1) off2, View.ld_unit_zero (S := S30x30) off2, View.ld_unit_zero (S := S1x1) off2]
  exact congrArg (fun z => k0_pay1 (k0_pay4 x0 x1 x2 z)) (Memref.IsWhole.read_unread (m := scM0_0) (Memref.isWhole_whole _) xs0)

/-- A last tile: the cell as at a middle tile, -/
theorem sout_C (c : Dev nD) (i : grid0.Coords) (arg2 : Memref sig .tc .vmem S8192x30 .f32) (harg2 : arg2.IsWhole) (arg3 : Memref sig .tc .vmem S8192x1 .i32) (harg3 : arg3.IsWhole) (arg4 : Memref sig .tc .vmem S30x30 .f32) (harg4 : arg4.IsWhole) (arg5 : Memref sig .tc .vmem S1x1x1 .f32) (harg5 : arg5.IsWhole) (hc0 : ¬cond0_0 i) (hc1 : cond0_1 i)
    (x0 : Vec F S8192x30 .f32) (x1 : Vec F S8192x1 .i32) (x2 : Vec F S30x30 .f32) (xs0 : Vec F S1x1 .f32) :
    sout0_C_0 c i arg2 harg2 arg3 harg3 arg4 harg4 arg5 harg5 scM0_0 (Memref.isWhole_whole _) hc0 hc1 x0 x1 x2 xs0
      = k0_pay1 (k0_pay4 x0 x1 x2 xs0) := by
  unfold sout0_C_0
  rw [View.read_writes_eq_canon _ _ _ (scover0_C_0 c i arg2 harg2 arg3 harg3 arg4 harg4 arg5 harg5 scM0_0 (Memref.isWhole_whole _) hc0 hc1 x0 x1 x2 xs0)]
  unfold kernelRun0_C
  dsimp only
  sl_unfold_words
  rw [View.canon_unit_zero (S := S1x1) off2]
  simp only [View.readAt_eq_ld, Memref.IsWhole.read_unread, View.ld_unit_zero (S := S8192x30) off2,
    View.ld_unit_zero (S := S8192x1) off2, View.ld_unit_zero (S := S30x30) off2, View.ld_unit_zero (S := S1x1) off2]
  exact congrArg (fun z => k0_pay1 (k0_pay4 x0 x1 x2 z)) (Memref.IsWhole.read_unread (m := scM0_0) (Memref.isWhole_whole _) xs0)

/-- and the output block is that cell, laid out as a [1,1,1] block. -/
theorem out_C (c : Dev nD) (i : grid0.Coords) (arg2 : Memref sig .tc .vmem S8192x30 .f32) (harg2 : arg2.IsWhole) (arg3 : Memref sig .tc .vmem S8192x1 .i32) (harg3 : arg3.IsWhole) (arg4 : Memref sig .tc .vmem S30x30 .f32) (harg4 : arg4.IsWhole) (arg5 : Memref sig .tc .vmem S1x1x1 .f32) (harg5 : arg5.IsWhole) (hc0 : ¬cond0_0 i) (hc1 : cond0_1 i)
    (x0 : Vec F S8192x30 .f32) (x1 : Vec F S8192x1 .i32) (x2 : Vec F S30x30 .f32) (xs0 : Vec F S1x1 .f32) :
    out0_C_3 c i arg2 harg2 arg3 harg3 arg4 harg4 arg5 harg5 scM0_0 (Memref.isWhole_whole _) hc0 hc1 x0 x1 x2 xs0
      = k0_pay2 (k0_pay1 (k0_pay4 x0 x1 x2 xs0)) := by
  unfold out0_C_3
  rw [View.read_writes_eq_canon _ _ _ (cover0_C_3 c i arg2 harg2 arg3 harg3 arg4 harg4 arg5 harg5 scM0_0 (Memref.isWhole_whole _) hc0 hc1 x0 x1 x2 xs0)]
  unfold kernelRun0_C
  dsimp only
  sl_unfold_words
  rw [View.canon_unit_zero (S := S1x1x1) off3, View.readCov_unit_zero (S := S1x1) _ off2]
  simp only [View.readAt_eq_ld, Memref.IsWhole.read_unread, View.ld_unit_zero (S := S8192x30) off2,
    View.ld_unit_zero (S := S8192x1) off2, View.ld_unit_zero (S := S30x30) off2, View.ld_unit_zero (S := S1x1) off2]
  exact congrArg (fun z => k0_pay2 (k0_pay1 (k0_pay4 x0 x1 x2 z))) (Memref.IsWhole.read_unread (m := scM0_0) (Memref.isWhole_whole _) xs0)

end Cert.KernelIdeal.Pieces

end
-- ==== Proof.Spec.lean ====
/-
  The loss both programs compute, as one function of the three argument arrays, and the pure facts about sums the
  comparison needs. No program is imported here.

  For a row of 30 logits v and a label t:  logp v j = (v j − max v) − log Σ_k exp (v k − max v)  (the maximum taken from −∞, as
  both programs take it), the weights are row t of the 30 × 30 matrix when 0 ≤ t < 30 (and zero for a label outside that
  range, which is what a one-hot product gives there), and the row's loss is  −Σ_j weight j · logp v j  when t ≠ 0 and
  0 when t = 0. The result is the sum of the row losses over all 4,194,304 rows, divided by the row count.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.MutCE

open Idealize.ShloMosaic Idealize.ShloMosaic.ValueIdx

/-- −∞, as the word both programs write for it. -/
abbrev negInf : EReal := Ideal.ofBits .f32 0xFF800000#32

/-- A row's maximum: the running maximum from −∞ over the 30 entries, compared once more with −∞. -/
def rowMax (v : Fin 30 → EReal) : EReal := max negInf ((Finset.univ : Finset (Fin 30)).fold max negInf v)

/-- The log-softmax of a row at column j. -/
def logp (v : Fin 30 → EReal) (j : Fin 30) : EReal :=
  (v j - rowMax v) - Ideal.log (∑ k : Fin 30, Ideal.exp (v k - rowMax v))

/-- The weights a label selects: row t of the matrix for a label in [0, 30), zero otherwise. -/
def weight (M : (⟨2, ![30, 30]⟩ : Shape).Idx → EReal) (t : BitVec 32) (j : Fin 30) : EReal :=
  if h : t.toNat < 30 then M (ix2 ⟨t.toNat, h⟩ j) else 0

/-- One row's loss: ignored (zero) for the label 0. -/
def rowLoss (M : (⟨2, ![30, 30]⟩ : Shape).Idx → EReal) (v : Fin 30 → EReal) (t : BitVec 32) : EReal :=
  Scalar.select (IntOp.cmpi .ne t 0#32) (-(∑ j : Fin 30, weight M t j * logp v j)) 0

/-- Row r of the data. -/
def lossAt (X : (⟨2, ![4194304, 30]⟩ : Shape).Idx → EReal) (Tg : (⟨1, ![4194304]⟩ : Shape).Idx → BitVec 32)
    (M : (⟨2, ![30, 30]⟩ : Shape).Idx → EReal) (r : Fin 4194304) : EReal :=
  rowLoss M (fun k => X (ix2 r k)) (Tg (ix1 r))

/-- The same by a natural row number (zero past the last row), for sums cut into blocks. -/
def lossNat (X : (⟨2, ![4194304, 30]⟩ : Shape).Idx → EReal) (Tg : (⟨1, ![4194304]⟩ : Shape).Idx → BitVec 32)
    (M : (⟨2, ![30, 30]⟩ : Shape).Idx → EReal) (r : ℕ) : EReal :=
  if h : r < 4194304 then lossAt X Tg M ⟨r, h⟩ else 0

/-- The sum over the 8192 rows of tile n. -/
def tileSum (X : (⟨2, ![4194304, 30]⟩ : Shape).Idx → EReal) (Tg : (⟨1, ![4194304]⟩ : Shape).Idx → BitVec 32)
    (M : (⟨2, ![30, 30]⟩ : Shape).Idx → EReal) (n : ℕ) : EReal :=
  ∑ q : Fin 8192, lossNat X Tg M (n * 8192 + q.val)

/-- The sum over all rows, -/
def total (X : (⟨2, ![4194304, 30]⟩ : Shape).Idx → EReal) (Tg : (⟨1, ![4194304]⟩ : Shape).Idx → BitVec 32)
    (M : (⟨2, ![30, 30]⟩ : Shape).Idx → EReal) : EReal :=
  ∑ r : Fin 4194304, lossAt X Tg M r

/-- and the loss: that sum over the row count 2²². -/
def loss (X : (⟨2, ![4194304, 30]⟩ : Shape).Idx → EReal) (Tg : (⟨1, ![4194304]⟩ : Shape).Idx → BitVec 32)
    (M : (⟨2, ![30, 30]⟩ : Shape).Idx → EReal) : EReal :=
  Ideal.div (total X Tg M) (Ideal.ofBits .f32 0x4A800000#32)

/-! ## A one-hot row times the matrix -/

/-- The word "column k is the label", widened and read as a number, is 1 or 0. -/
theorem onehot_val (a t : BitVec 32) :
    ((((IntOp.cmpi .eq a t).setWidth 32).toInt : ℝ) : EReal) = if a = t then 1 else 0 := by
  by_cases h : a = t
  · rw [if_pos h, StableHlo.Predicate.cmpi_eq_iff.mpr h]
    norm_num
  · rw [if_neg h, eq_zero_of_ne_one (fun hc => h (StableHlo.Predicate.cmpi_eq_iff.mp hc))]
    norm_num

/-- Σ_k [k = t] · M k j  is row t of M at j for a label in range and 0 otherwise: over the extended reals
    0 · x = 0 and 1 · x = x for every x, so nothing is asked of M. -/
theorem sum_onehot (M : (⟨2, ![30, 30]⟩ : Shape).Idx → EReal) (t : BitVec 32) (j : Fin 30) :
    ∑ k : Fin 30, (if BitVec.ofNat 32 k.val = t then (1 : EReal) else 0) * M (ix2 k j) = weight M t j := by
  unfold weight
  by_cases h : t.toNat < 30
  · rw [dif_pos h, Finset.sum_eq_single (⟨t.toNat, h⟩ : Fin 30)]
    · rw [if_pos (BitVec.eq_of_toNat_eq (by rw [BitVec.toNat_ofNat]; exact Nat.mod_eq_of_lt t.isLt)), one_mul]
    · intro k _ hk
      rw [if_neg, zero_mul]
      intro e
      apply hk
      apply Fin.ext
      have := congrArg BitVec.toNat e
      rw [BitVec.toNat_ofNat, Nat.mod_eq_of_lt (by have := k.isLt; omega)] at this
      exact this
    · intro hn; exact absurd (Finset.mem_univ _) hn
  · rw [dif_neg h]
    refine Finset.sum_eq_zero fun k _ => ?_
    rw [if_neg, zero_mul]
    intro e
    apply h
    have := congrArg BitVec.toNat e
    rw [BitVec.toNat_ofNat, Nat.mod_eq_of_lt (by have := k.isLt; omega)] at this
    have := k.isLt
    omega

/-! ## Sums cut into blocks, and the running sum a tile loop keeps -/

/-- A sum over B·T consecutive numbers is the sum over B blocks of the sums over the T numbers of each. -/
theorem sum_fin_mul {β : Type*} [AddCommMonoid β] (B T : ℕ) (g : ℕ → β) :
    ∑ r : Fin (B * T), g r.val = ∑ n : Fin B, ∑ q : Fin T, g (n.val * T + q.val) := by
  rw [← Equiv.sum_comp (finProdFinEquiv (m := B) (n := T)), Fintype.sum_prod_type]
  refine Finset.sum_congr rfl fun n _ => Finset.sum_congr rfl fun q _ => ?_
  rw [finProdFinEquiv_apply_val, Nat.add_comm, Nat.mul_comm]

/-- The running sum inside a run of 256 tiles: the tiles from the run's first up to tile n. -/
def runSum (g : ℕ → EReal) (n : ℕ) : EReal := ∑ k ∈ Finset.range (n % 256 + 1), g (n - n % 256 + k)

theorem runSum_first (g : ℕ → EReal) (n : ℕ) (h : n % 256 = 0) : runSum g n = g n := by
  unfold runSum
  rw [h, Finset.sum_range_one, Nat.sub_zero, Nat.add_zero]

theorem runSum_step (g : ℕ → EReal) (n : ℕ) (h : ¬ n % 256 = 0) : runSum g n = runSum g (n - 1) + g n := by
  unfold runSum
  have h1 : (n - 1) % 256 + 1 = n % 256 := by omega
  have h2 : n - 1 - (n - 1) % 256 = n - n % 256 := by omega
  have h3 : n - n % 256 + n % 256 = n := by have := Nat.mod_le n 256; omega
  rw [Finset.sum_range_succ, h1, h2, h3]

theorem runSum_last (g : ℕ → EReal) (p : ℕ) : runSum g (p * 256 + 255) = ∑ k ∈ Finset.range 256, g (p * 256 + k) := by
  unfold runSum
  have h1 : (p * 256 + 255) % 256 = 255 := by omega
  rw [h1]
  have h2 : p * 256 + 255 - 255 = p * 256 := by omega
  rw [h2]

/-- All 4,194,304 rows are the 2 · 256 runs' tiles of 8192 rows each. -/
theorem total_eq_runs (X : (⟨2, ![4194304, 30]⟩ : Shape).Idx → EReal) (Tg : (⟨1, ![4194304]⟩ : Shape).Idx → BitVec 32)
    (M : (⟨2, ![30, 30]⟩ : Shape).Idx → EReal) :
    total X Tg M = ∑ p : Fin 2, runSum (tileSum X Tg M) (p.val * 256 + 255) := by
  unfold total
  have e1 : ∑ r : Fin 4194304, lossAt X Tg M r = ∑ r : Fin (512 * 8192), lossNat X Tg M r.val :=
    Finset.sum_congr rfl fun r _ => by unfold lossNat; rw [dif_pos r.isLt]
  rw [e1, sum_fin_mul 512 8192 (lossNat X Tg M)]
  have e2 : ∑ n : Fin 512, ∑ q : Fin 8192, lossNat X Tg M (n.val * 8192 + q.val)
      = ∑ n : Fin (2 * 256), tileSum X Tg M n.val := rfl
  rw [e2, sum_fin_mul 2 256 (tileSum X Tg M)]
  refine Finset.sum_congr rfl fun p _ => ?_
  rw [runSum_last, Finset.sum_range]

end Cert.MutCE

end
-- ==== Proof.LibColumn.lean ====
/-
  A vector kept as a column and spread along its rows: the two layout steps a row statistic (a row's maximum,
  a row's sum) goes through before it meets the `[a, b]` array it was taken from. A length-`a` vector cast to
  `[a, 1]` reads, at `(p, 0)`, entry `p`; an `[a, 1]` column broadcast to `[a, b]` reads, at `(p, s)`, the
  column's entry `(p, 0)`, whatever `s` is.
-/
import Idealize.ShloMosaic.Lib.Pipeline.Value
import Idealize.ShloMosaic.Lib.ValueIdx

noncomputable section

namespace Cert.Attn.Column

open Idealize.ShloMosaic Idealize.ShloMosaic.ValueIdx

variable {α : Type}

/-- A length-`a` vector cast to an `[a, 1]` column reads, at `(p, u)`, the vector at `p`: both sit at row-major
    position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- An `[a, 1]` column broadcast to `[a, b]` reads, at `(p, s)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (s : Fin b) :
    broadcastTo ⟨2, ![a, b]⟩ v h (ix2 p s) = v (ix2 p (0 : Fin 1)) := by
  refine broadcastTo_apply v h (ix2 p s) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else s.val
    rw [if_pos rfl]

end Cert.Attn.Column

end
-- ==== Proof.LibMlp.lean ====
/-
  One dense stage of a graph network's per-node perceptron, as a function on the extended reals, index by index:
  a matrix product, a bias, and an evaluation-mode batch normalisation  (a - m) * rsqrt (v + eps) * g + b , optionally
  followed by a rectifier  max a 0 .  Written over PLAIN coordinates (`Fin`) so that a kernel's row block and the
  whole array are the same function of their rows, and read off the two spellings a program may give it: the
  vector dialect's (a matrix-unit product into a zero accumulator, row vectors broadcast down the rows) and the
  host's (a `dot_general`, vectors broadcast in two steps).
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

/-- The variance offset of the normalisation: the single-precision word nearest 1e-5, read as an extended real. -/
def eps : EReal := Ideal.ofBits .f32 0x3727C5AC#32
/-- The rectifier's floor: the zero word. -/
def zero : EReal := Ideal.ofBits .f32 0x00000000#32

/-- Evaluation-mode batch normalisation of one value. -/
def bn (a m v g b : EReal) : EReal := (a - m) * Ideal.rsqrt (v + eps) * g + b

/-- A dense stage: row `i 0` of `a` against column `i 1` of `W`, plus the bias, normalised. -/
def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

/-- A one-row matrix read as a vector of its entries. -/
def row {H : ℕ} (x : (⟨2, ![1, H]⟩ : Shape).Idx → EReal) : Fin H → EReal := fun h => x (ix2 0 h)
/-- A rank-one array read as a vector of its entries. -/
def vec {H : ℕ} (x : (⟨1, ![H]⟩ : Shape).Idx → EReal) : Fin H → EReal := fun h => x (ix1 h)

/-- A vector reshaped to one row and read back as a vector is the vector. -/
theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

/-- The rectifier, entry by entry. -/
def relu {S : Shape} (a : S.Idx → EReal) : S.Idx → EReal := fun i => max (a i) zero

/-- A dense stage reads only the row it is asked for: two inputs that agree on a row give the same row. -/
theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

/-- Two dense stages with a rectifier between them: one layer's perceptron and its outer normalisation. -/
def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

/-- A layer reads only the row it is asked for. -/
theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

/-! ## A plain product's contraction is a sum over the middle coordinate -/

/-- For the dimension numbers of an M×K by K×N product, the sum over the contraction index is the sum over `Fin K` of
    row entry times column entry. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

/-! ## The two spellings of the rectifier -/

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

/-! ## The vector dialect's spelling of a dense stage -/

/-- A row vector broadcast down the rows, read at (p, q), is its entry q. -/
theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

/-! ## The host's spelling of a dense stage -/

/-- A vector broadcast to a one-row matrix and then down the rows, read at (p, q), is its entry q. -/
theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.Pay.lean ====
/-
  One tile's arithmetic, read at an index over the extended reals.

  The kernel's body, between its loads and its stores, is one pure function of the tile of logits (8192 × 30), the
  tile's labels (an 8192 × 1 column), the 30 × 30 matrix and the previous contents of the running-sum cell. It is
  restated here as a composition of stages — the row maximum, the shifted logits, the log-softmax, the one-hot rows,
  their product with the matrix, the masked row losses, and their sum over the tile — and each stage is read at an
  index. The one-hot product needs no finiteness: over the extended reals 0 · x = 0 and 1 · x = x for every x.
-/
import proofs.«411149_j26903675142293_2_alg».proof.Proof.Gen.KernelIdeal.Skeleton
import proofs.«411149_j26903675142293_2_alg».proof.Proof.Spec
import proofs.«411149_j26903675142293_2_alg».proof.Proof.LibColumn
import proofs.«411149_j26903675142293_2_alg».proof.Proof.LibMlp
import Idealize.ShloMosaic.PureOps.Ideal.Laws
import Idealize.ShloMosaic.Lib.ValueIdx
import Idealize.ShloMosaic.Lib.Pipeline.Value
import Idealize.ShloMosaic.Lib.KernelVsHost

noncomputable section

namespace Cert.KernelIdeal.Pay

open Idealize.ShloMosaic Idealize.ShloMosaic.ValueIdx Cert.KernelIdeal Cert.KernelIdeal.Gen Cert.MutCE

/-! ## The body in stages, at any float family -/

section Stages
variable {F : FTy → Type} [FloatOps F]

/-- Each row's maximum. -/
def rowMaxV (v3 : Vec F S8192x30 .f32) : FVec F S8192 .f32 :=
  maximumf (broadcast S8192 (Scalar.ofBits .f32 0xFF800000#32))
    (multiReduction .maximumf [1] S8192 v3 0xFF800000#32 reduces_S8192x30_S8192 (.inl rfl) rfl)

/-- The logits less their row's maximum. -/
def shifted (v3 : Vec F S8192x30 .f32) : FVec F S8192x30 .f32 :=
  subf v3 (broadcastTo S8192x30 (shapeCast S8192x1 (rowMaxV v3) shapeCasts_S8192_S8192x1) broadcasts_S8192x1_S8192x30)

/-- The log-softmax of each row. -/
def lsm (v3 : Vec F S8192x30 .f32) : FVec F S8192x30 .f32 :=
  subf (shifted v3) (broadcastTo S8192x30 (log (shapeCast S8192x1
    (multiReduction .add [1] S8192 (exp (shifted v3)) 0x00000000#32 reduces_S8192x30_S8192 (.inl rfl) rfl)
    shapeCasts_S8192_S8192x1)) broadcasts_S8192x1_S8192x30)

/-- The labels as a column (a cast of the column to its own shape). -/
def labels (v4 : Vec F S8192x1 .i32) : IVec S8192x1 32 := shapeCast S8192x1 v4 shapeCasts_S8192x1_S8192x1

/-- The one-hot rows: 1 where the column number is the row's label. -/
def onehot (v4 : Vec F S8192x1 .i32) : FVec F S8192x30 .f32 :=
  sitofp .f32 (extui 32 (cmpi .eq (iota .tc S8192x30 32 [1] iota_S8192x30_d1_w32)
    (broadcastTo S8192x30 (labels v4) broadcasts_S8192x1_S8192x30)) natLt_1_32)

/-- The one-hot rows times the matrix. -/
def wts (v4 : Vec F S8192x1 .i32) (v23 : Vec F S30x30 .f32) : FVec F S8192x30 .f32 :=
  matmul dot_S8192x30_S30x30_S8192x30_1_0_0_1_n_n (some .fp32) (onehot v4) v23 (constant S8192x30 .f32 0x00000000#32)

/-- The masked row losses, as a column. -/
def rows (v3 : Vec F S8192x30 .f32) (v4 : Vec F S8192x1 .i32) (v23 : Vec F S30x30 .f32) : FVec F S8192x1 .f32 :=
  select (cmpi .ne (labels v4) (broadcast S8192x1 0#32))
    (subf (broadcast S8192x1 (Scalar.ofBits .f32 0x00000000#32))
      (shapeCast S8192x1 (multiReduction .add [1] S8192 (mulf (wts v4 v23) (lsm v3)) 0x00000000#32
        reduces_S8192x30_S8192 (.inl rfl) rfl) shapeCasts_S8192_S8192x1))
    (broadcast S8192x1 (Scalar.ofBits .f32 0x00000000#32))

/-- The tile's partial sum, as a [1,1] value. -/
def tile (v3 : Vec F S8192x30 .f32) (v4 : Vec F S8192x1 .i32) (v23 : Vec F S30x30 .f32) : FVec F S1x1 .f32 :=
  shapeCast S1x1 (multiReduction .add [0] S1 (rows v3 v4 v23) 0x00000000#32 reduces_S8192x1_S1 (.inl rfl) rfl)
    shapeCasts_S1_S1x1

/-- The body's update of the running-sum cell is the cell plus the tile's partial sum. -/
theorem pay4_eq (v3 : Vec F S8192x30 .f32) (v4 : Vec F S8192x1 .i32) (v23 : Vec F S30x30 .f32) (v36 : Vec F S1x1 .f32) :
    k0_pay4 v3 v4 v23 v36 = addf v36 (tile v3 v4 v23) := rfl

end Stages

/-! ## The stages read at an index, over the extended reals -/

/-- Row q of the tile with column k put back on the reduced axis is entry (q, k). -/
theorem lift_row (q : Fin 8192) (k : Fin 30) : reduces_S8192x30_S8192.lift (ix1 q) k = ix2 q k :=
  funext fun a => Fin.ext (by match a with | ⟨0, _⟩ => rfl | ⟨1, _⟩ => rfl)

/-- The one entry of the column's sum with row q put back on the reduced axis is entry (q, 0). -/
theorem lift_col (q : Fin 8192) : reduces_S8192x1_S1.lift (ix1 (0 : Fin 1)) q = ix2 q (0 : Fin 1) :=
  funext fun a => Fin.ext (by match a with | ⟨0, _⟩ => rfl | ⟨1, _⟩ => rfl)

/-- A row's running maximum from −∞ over its 30 entries. -/
theorem rowFold_apply (x : FVec Ideal S8192x30 .f32) (q : Fin 8192) :
    multiReduction (F := Ideal) .maximumf [1] S8192 x 0xFF800000#32 reduces_S8192x30_S8192 (.inl rfl) rfl (ix1 q)
      = (Finset.univ : Finset (Fin 30)).fold max negInf (fun k => x (ix2 q k)) := by
  refine (Ideal.multiReduction_maximumf_single x 0xFF800000#32 reduces_S8192x30_S8192 (.inl rfl) rfl (ix1 q)).trans ?_
  have h2 : (x ∘ reduces_S8192x30_S8192.lift (ix1 q)) = fun k : Fin 30 => x (ix2 q k) :=
    funext fun k => congrArg x (lift_row q k)
  rw [h2]
  rfl

/-- A row's sum over its 30 entries. -/
theorem rowSum_apply (x : FVec Ideal S8192x30 .f32) (q : Fin 8192) :
    multiReduction (F := Ideal) .add [1] S8192 x 0x00000000#32 reduces_S8192x30_S8192 (.inl rfl) rfl (ix1 q)
      = ∑ k : Fin 30, x (ix2 q k) := by
  refine (Ideal.multiReduction_add_single x 0x00000000#32 reduces_S8192x30_S8192 (.inl rfl) rfl (ix1 q)).trans ?_
  exact Finset.sum_congr rfl fun k _ => congrArg x (lift_row q k)

/-- A column's sum over its 8192 entries. -/
theorem colSum_apply (x : FVec Ideal S8192x1 .f32) :
    multiReduction (F := Ideal) .add [0] S1 x 0x00000000#32 reduces_S8192x1_S1 (.inl rfl) rfl (ix1 (0 : Fin 1))
      = ∑ q : Fin 8192, x (ix2 q (0 : Fin 1)) := by
  refine (Ideal.multiReduction_add_single x 0x00000000#32 reduces_S8192x1_S1 (.inl rfl) rfl (ix1 (0 : Fin 1))).trans ?_
  exact Finset.sum_congr rfl fun q _ => congrArg x (lift_col q)

theorem rowMaxV_apply (x : FVec Ideal S8192x30 .f32) (q : Fin 8192) :
    rowMaxV (F := Ideal) x (ix1 q) = rowMax (fun k => x (ix2 q k)) := by
  unfold rowMaxV rowMax
  rw [maximumf_apply]
  exact congrArg (max negInf ·) (rowFold_apply x q)

theorem shifted_apply (x : FVec Ideal S8192x30 .f32) (q : Fin 8192) (j : Fin 30) :
    shifted (F := Ideal) x (ix2 q j) = x (ix2 q j) - rowMax (fun k => x (ix2 q k)) := by
  unfold shifted
  rw [subf_apply, Cert.Attn.Column.broadcastTo_a1_ab_apply, Cert.Attn.Column.shapeCast_a_a1_apply, rowMaxV_apply]

theorem lsm_apply (x : FVec Ideal S8192x30 .f32) (q : Fin 8192) (j : Fin 30) :
    lsm (F := Ideal) x (ix2 q j) = logp (fun k => x (ix2 q k)) j := by
  unfold lsm logp
  rw [subf_apply, shifted_apply, Cert.Attn.Column.broadcastTo_a1_ab_apply]
  show _ - Ideal.log (shapeCast S8192x1 _ shapeCasts_S8192_S8192x1 (ix2 q (0 : Fin 1))) = _
  rw [Cert.Attn.Column.shapeCast_a_a1_apply, rowSum_apply]
  refine congrArg (fun z => _ - Ideal.log z) (Finset.sum_congr rfl fun k _ => ?_)
  show Ideal.exp (shifted (F := Ideal) x (ix2 q k)) = _
  rw [shifted_apply]

theorem labels_apply (t : IVec S8192x1 32) (y : S8192x1.Idx) : labels (F := Ideal) t y = t y := by
  unfold labels
  rw [shapeCast_self]

theorem onehot_apply (t : IVec S8192x1 32) (q : Fin 8192) (k : Fin 30) :
    onehot (F := Ideal) t (ix2 q k) = if BitVec.ofNat 32 k.val = t (ix2 q 0) then 1 else 0 := by
  unfold onehot
  rw [sitofp_apply, extui_apply]
  show (((((IntOp.cmpi .eq (iota .tc S8192x30 32 [1] iota_S8192x30_d1_w32 (ix2 q k))
    (broadcastTo S8192x30 (labels (F := Ideal) t) broadcasts_S8192x1_S8192x30 (ix2 q k))).setWidth 32).toInt : ℝ) : EReal)) = _
  rw [iota_single_apply, Cert.Attn.Column.broadcastTo_a1_ab_apply, labels_apply]
  exact onehot_val _ _

theorem wts_apply (t : IVec S8192x1 32) (M : FVec Ideal S30x30 .f32) (q : Fin 8192) (j : Fin 30) :
    wts (F := Ideal) t M (ix2 q j) = weight M (t (ix2 q 0)) j := by
  unfold wts
  rw [show matmul (F := Ideal) dot_S8192x30_S30x30_S8192x30_1_0_0_1_n_n (some .fp32) (onehot (F := Ideal) t) M (constant S8192x30 .f32 0x00000000#32) (ix2 q j) = _ from
    Ideal.matmul_constant_zero_apply dot_S8192x30_S30x30_S8192x30_1_0_0_1_n_n (some .fp32) (onehot (F := Ideal) t) M (ix2 q j)]
  rw [show dot_S8192x30_S30x30_S8192x30_1_0_0_1_n_n = DotDims.plain 8192 30 30 from rfl]
  rw [Cert.Mlp.plain_sum (onehot (F := Ideal) t) M (ix2 q j)]
  rw [← sum_onehot M (t (ix2 q 0)) j]
  refine Finset.sum_congr rfl fun k _ => ?_
  show onehot (F := Ideal) t (ix2 q k) * M (ix2 k j) = _
  rw [onehot_apply]

theorem rows_apply (x : FVec Ideal S8192x30 .f32) (t : IVec S8192x1 32) (M : FVec Ideal S30x30 .f32) (q : Fin 8192) :
    rows (F := Ideal) x t M (ix2 q 0) = rowLoss M (fun k => x (ix2 q k)) (t (ix2 q 0)) := by
  unfold rows rowLoss
  rw [select_apply]
  show Scalar.select (IntOp.cmpi .ne (labels (F := Ideal) t (ix2 q 0)) 0#32)
    (Ideal.ofBits .f32 0x00000000#32 - shapeCast S8192x1 _ shapeCasts_S8192_S8192x1 (ix2 q (0 : Fin 1)))
    (Ideal.ofBits .f32 0x00000000#32) = _
  rw [labels_apply, Cert.Attn.Column.shapeCast_a_a1_apply, rowSum_apply, Ideal.ofBits_zero_f32, zero_sub]
  refine congrArg (fun z => Scalar.select _ (-z) 0) (Finset.sum_congr rfl fun k _ => ?_)
  show wts (F := Ideal) t M (ix2 q k) * lsm (F := Ideal) x (ix2 q k) = _
  rw [wts_apply, lsm_apply]

/-- THE TILE: the cell's new contents are its old contents plus the sum of the tile's row losses. -/
theorem pay4_apply (x : FVec Ideal S8192x30 .f32) (t : IVec S8192x1 32) (M : FVec Ideal S30x30 .f32)
    (s : FVec Ideal S1x1 .f32) (y : S1x1.Idx) :
    k0_pay4 (F := Ideal) x t M s y = s y + ∑ q : Fin 8192, rowLoss M (fun k => x (ix2 q k)) (t (ix2 q 0)) := by
  rw [pay4_eq, addf_apply]
  refine congrArg (s y + ·) ?_
  unfold tile
  rw [shapeCast_apply _ shapeCasts_S1_S1x1 y (ix1 (0 : Fin 1)) (by
    have h0 : (y 0).val < 1 := (y 0).isLt
    have h1 : (y 1).val < 1 := (y 1).isLt
    rw [Shape.rowMajor_val_one, Shape.rowMajor_val_two]
    show (0 : ℕ) = (y 0).val * 1 + (y 1).val
    omega)]
  rw [colSum_apply]
  exact Finset.sum_congr rfl fun q _ => rows_apply x t M q

end Cert.KernelIdeal.Pay

end
-- ==== Proof.KValue.lean ====
/-
  What the kernel's launch leaves in its [2,1,1] result array, over the extended reals.

  The grid is 2 × 256 points; point n = 256·p + s works on tile n: rows 8192·n … 8192·n + 8191 of the logits and of the
  labels (the labels as the column the host reshaped them into), with the whole 30 × 30 matrix. The running-sum cell
  holds, after point n, the sum of the tile sums from the first tile of n's run of 256 up to tile n: it is reset at a run's
  first point and updated by the tile's sum at every point (induction on the point). The last point of run p copies the
  cell into block p of the result, so entry p of the result is the sum of run p's 256 tile sums.
-/
import proofs.«411149_j26903675142293_2_alg».proof.Proof.Gen.KernelIdeal.Frame
import proofs.«411149_j26903675142293_2_alg».proof.Proof.Pieces
import proofs.«411149_j26903675142293_2_alg».proof.Proof.Pay
import proofs.«411149_j26903675142293_2_alg».proof.Proof.Spec
import proofs.«411149_j26903675142293_2_alg».proof.Proof.LibColumn
import Idealize.ShloMosaic.Lib.Pipeline.Value
import Idealize.ShloMosaic.Lib.StableHlo.Run
import Idealize.ShloMosaic.Lib.ValueLayout

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.MutCE

variable (m : (ℓ : Loc nD τ sig) → Buf (Elt Ideal) ℓ) (ρ : Dev nD → PrngReg)

/-- The three argument arrays as launched. -/
abbrev argX (c : Dev nD) : FVec Ideal S4194304x30 .f32 := m ((c : Thread nD τ).loc main_arg0)
abbrev argT (c : Dev nD) : IVec S4194304 32 := m ((c : Thread nD τ).loc main_arg1)
abbrev argM (c : Dev nD) : FVec Ideal S30x30 .f32 := m ((c : Thread nD τ).loc main_arg2)

/-- The three input blocks a point works on. -/
abbrev xblk (c : Dev nD) (t : Fin cfg0.N) : FVec Ideal S8192x30 .f32 := iblk m c 0 t
abbrev tblk (c : Dev nD) (t : Fin cfg0.N) : IVec S8192x1 32 := iblk m c 1 t
abbrev mblk (c : Dev nD) (t : Fin cfg0.N) : FVec Ideal S30x30 .f32 := iblk m c 2 t

/-! ## Which block each point takes -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val / 256 ∧ win0_3.index t 1 = 0 ∧ win0_3.index t 2 = 0 :=
  (by decide +kernel : ∀ t : Fin grid0.N, win0_3.index t 0 = t.val / 256 ∧ win0_3.index t 1 = 0 ∧ win0_3.index t 2 = 0)

/-- Row q of point t's logits tile is row 8192·t + q of the logits. -/
theorem xblk_apply (c : Dev nD) (t : Fin cfg0.N) (q : Fin 8192) (k : Fin 30) (h : t.val * 8192 + q.val < 4194304) :
    xblk m c t (ix2 q k) = argX m c (ix2 ⟨t.val * 8192 + q.val, h⟩ k) := by
  show iblk m c 0 t (ix2 q k) = _
  unfold iblk
  rw [View.read_apply]
  show V m c main_arg0 _ = _
  refine (congrFun (V_main_arg0 m c) _).trans ?_
  show m ((c : Thread nD τ).loc main_arg0) _ = m ((c : Thread nD τ).loc main_arg0) _
  congr 1
  funext a
  apply Fin.ext
  match a with
  | ⟨0, _⟩ => show win0_0.index t 0 * 8192 + 1 * q.val = t.val * 8192 + q.val; rw [(idx0 t).1]; omega
  | ⟨1, _⟩ => show win0_0.index t 1 * 30 + 1 * k.val = k.val; rw [(idx0 t).2]; omega

/-- The label column the region finds is the host's reshape of the labels. -/
theorem tcol_eq (c : Dev nD) :
    (V m c main_v0 : S4194304x1.Idx → BitVec 32)
      = shapeCast S4194304x1 (m ((c : Thread nD τ).loc main_arg1)) shapeCasts_S4194304_S4194304x1 := by
  show StableHlo.after hostOps0 (fun b => m (c, b)) (Proc.devRef .tc main_v0) = _
  after_results
  rfl

/-- Row q of point t's label tile is label 8192·t + q. -/
theorem tblk_apply (c : Dev nD) (t : Fin cfg0.N) (q : Fin 8192) (h : t.val * 8192 + q.val < 4194304) :
    tblk m c t (ix2 q 0) = argT m c (ix1 ⟨t.val * 8192 + q.val, h⟩) := by
  show iblk m c 1 t (ix2 q 0) = _
  unfold iblk
  rw [View.read_apply]
  show V m c main_v0 _ = _
  refine (congrFun (tcol_eq m c) _).trans ?_
  have hi : (((cfg0.win 1).blk t).view.emb (ix2 q (0 : Fin 1)))
      = ix2 (⟨t.val * 8192 + q.val, h⟩ : Fin 4194304) (0 : Fin 1) := by
    funext a
    apply Fin.ext
    match a with
    | ⟨0, _⟩ => show win0_1.index t 0 * 8192 + 1 * q.val = t.val * 8192 + q.val; rw [(idx1 t).1]; omega
    | ⟨1, _⟩ => show win0_1.index t 1 * 1 + 1 * 0 = 0; rw [(idx1 t).2]
  refine (congrArg _ hi).trans ?_
  exact Cert.Attn.Column.shapeCast_a_a1_apply _ _ _ _

/-- Every point's matrix block is the whole matrix. -/
theorem mblk_eq (c : Dev nD) (t : Fin cfg0.N) : mblk m c t = argM m c := by
  funext y
  show iblk m c 2 t y = _
  unfold iblk
  rw [View.read_apply]
  show V m c main_arg2 _ = _
  refine (congrFun (V_main_arg2 m c) _).trans ?_
  show m ((c : Thread nD τ).loc main_arg2) _ = m ((c : Thread nD τ).loc main_arg2) y
  congr 1
  funext a
  apply Fin.ext
  match a with
  | ⟨0, _⟩ => show win0_2.index t 0 * 30 + 1 * (y 0).val = (y 0).val; rw [(idx2 t).1]; omega
  | ⟨1, _⟩ => show win0_2.index t 1 * 30 + 1 * (y 1).val = (y 1).val; rw [(idx2 t).2]; omega

/-! ## The tile sum and the running sum -/

/-- The tile sums of the launched arrays, by tile number. -/
abbrev tiles (c : Dev nD) : ℕ → EReal := tileSum (argX m c) (argT m c) (argM m c)

/-- The sum of point t's masked row losses is tile t's sum. -/
theorem tile_eq (c : Dev nD) (t : Fin cfg0.N) :
    ∑ q : Fin 8192, rowLoss (mblk m c t) (fun k => xblk m c t (ix2 q k)) (tblk m c t (ix2 q 0)) = tiles m c t.val := by
  have hN : t.val < 512 := lt_of_lt_of_eq t.isLt N_0
  unfold tiles tileSum
  refine Finset.sum_congr rfl fun q _ => ?_
  have hq : t.val * 8192 + q.val < 4194304 := by have := q.isLt; omega
  unfold lossNat
  rw [dif_pos hq]
  unfold lossAt
  rw [mblk_eq, tblk_apply m c t q hq]
  exact congrArg (fun v => rowLoss _ v _) (funext fun k => xblk_apply m c t q k hq)

theorem pay1_apply (v : FVec Ideal S1x1 .f32) (y : S1x1.Idx) : k0_pay1 (F := Ideal) v y = v y :=
  congrFun (shapeCast_self v _) y

theorem pay3_apply (y : S1x1.Idx) : k0_pay3 (F := Ideal) y = 0 := by
  show shapeCast S1x1 (broadcast S1x1 (Scalar.ofBits (F := Ideal) .f32 0x00000000#32)) _ y = 0
  rw [shapeCast_self]
  exact Ideal.ofBits_zero_f32

theorem pay2_apply (v : FVec Ideal S1x1 .f32) (y : S1x1x1.Idx) : k0_pay2 (F := Ideal) v y = v (ix2 0 0) := by
  obtain ⟨u, i, j, rfl⟩ : ∃ (u i j : Fin 1), y = ix3 u i j := ⟨y 0, y 1, y 2, eq_ix3 y⟩
  show shapeCast S1x1x1 v shapeCasts_S1x1_S1x1x1 (ix3 u i j) = _
  rw [shapeCast_ab_1ab_apply]
  have hi : i = 0 := Subsingleton.elim _ _
  have hj : j = 0 := Subsingleton.elim _ _
  rw [hi, hj]

/-- THE INVARIANT: after point n the running-sum cell holds the sum of the tile sums of n's run up to n. -/
theorem scratch_eq (c : Dev nD) :
    ∀ (n : ℕ) (h : n < cfg0.N) (y : S1x1.Idx), (outsAt0 m c n h).2 y = runSum (tiles m c) n := by
  intro n
  induction n using Nat.strong_induction_on with
  | _ n ih =>
    intro h y
    have hN : n < 512 := lt_of_lt_of_eq h N_0
    by_cases h0 : n % 256 = 0
    · have h1 : ¬ n % 256 = 255 := by omega
      rw [outsAt0_A m c ⟨n, h⟩ h0 h1]
      dsimp only
      refine (congrFun (Pieces.sout_A (F := Ideal) c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) (ms0_3 ⟨n, h⟩) (hs0_3 ⟨n, h⟩) ((hcond0_0 ⟨n, h⟩).mpr h0) (fun hh => h1 ((hcond0_1 ⟨n, h⟩).mp hh))
        (xblk m c ⟨n, h⟩) (tblk m c ⟨n, h⟩) (mblk m c ⟨n, h⟩)) y).trans ?_
      rw [pay1_apply, Pay.pay4_apply, pay3_apply, zero_add, tile_eq m c ⟨n, h⟩, runSum_first _ _ h0]
    · have hpos : 0 < n := by omega
      have hprev := ih (n - 1) (by omega) (by omega : n - 1 < cfg0.N)
      by_cases h1 : n % 256 = 255
      · rw [outsAt0_C m c ⟨n, h⟩ h0 h1]
        dsimp only
        refine (congrFun (Pieces.sout_C (F := Ideal) c (grid0.coords ⟨n, h⟩) (ms0_0 ⟨n, h⟩) (hs0_0 ⟨n, h⟩) (ms0_1 ⟨n, h⟩) (hs0_1 ⟨n, h⟩)
          (ms0_2 ⟨n, h⟩) (hs0_2 ⟨n, h⟩) (ms0_3 ⟨n, h⟩) (hs0_3 ⟨n, h⟩) (fun hh => h0 ((hcond0_0 ⟨n, h⟩).mp hh)) ((hcond0_1 ⟨n, h⟩).mpr h1)
          (xblk m c ⟨n, h⟩) (tblk m c ⟨n, h⟩) (mblk m c ⟨n, h⟩)
          (outsAt0 m c (n - 1) _).2) y).trans ?_
        rw [pay1_apply, Pay.pay4_apply, hprev, tile_eq m c ⟨n, h⟩, runSum_step _ _ h0]
      · rw [outsAt0_B m c ⟨n, h⟩ h0 h1]
        dsimp only
        refine (congrFun (Pieces.sout_B (F := Ideal) c (grid0.coords ⟨n, h⟩) (ms0_0 ⟨n, h⟩) (hs0_0 ⟨n, h⟩) (ms0_1 ⟨n, h⟩) (hs0_1 ⟨n, h⟩)
          (ms0_2 ⟨n, h⟩) (hs0_2 ⟨n, h⟩) (ms0_3 ⟨n, h⟩) (hs0_3 ⟨n, h⟩) (fun hh => h0 ((hcond0_0 ⟨n, h⟩).mp hh)) (fun hh => h1 ((hcond0_1 ⟨n, h⟩).mp hh))
          (xblk m c ⟨n, h⟩) (tblk m c ⟨n, h⟩) (mblk m c ⟨n, h⟩)
          (outsAt0 m c (n - 1) _).2) y).trans ?_
        rw [pay1_apply, Pay.pay4_apply, hprev, tile_eq m c ⟨n, h⟩, runSum_step _ _ h0]

/-- The output block a run's last point stores is the cell's final contents: the run's whole sum up to that point. -/
theorem out_eq (c : Dev nD) (t : Fin cfg0.N) (h1 : t.val % 256 = 255) (y : S1x1x1.Idx) :
    (outsAt0 m c t.val t.isLt).1 y = runSum (tiles m c) t.val := by
  have hN : t.val < 512 := lt_of_lt_of_eq t.isLt N_0
  have h0 : ¬ t.val % 256 = 0 := by omega
  have hprev := scratch_eq m c (t.val - 1) (by have := t.isLt; omega)
  rw [outsAt0_C m c t h0 h1]
  dsimp only
  refine (congrFun (Pieces.out_C (F := Ideal) c (grid0.coords t) (ms0_0 t) (hs0_0 t) (ms0_1 t) (hs0_1 t)
    (ms0_2 t) (hs0_2 t) (ms0_3 t) (hs0_3 t) (fun hh => h0 ((hcond0_0 t).mp hh)) ((hcond0_1 t).mpr h1) (xblk m c t) (tblk m c t) (mblk m c t)
    (outsAt0 m c (t.val - 1) _).2) y).trans ?_
  rw [pay2_apply, pay1_apply, Pay.pay4_apply, hprev, tile_eq m c t, runSum_step _ _ h0]

/-! ## The result array after the region -/

/-- Entry p of the result: the sum of run p's tile sums. -/
def outG (c : Dev nD) : FVec Ideal S2x1x1 .f32 := fun y => runSum (tiles m c) ((y 0).val * 256 + 255)

/-- What a run's last point writes back is block p of that array. -/
theorem flushed_eq (c : Dev nD) (t : Fin cfg0.N) (hf : (cfg0.win 3).flush t = true) :
    (dats m 0 c).flushed 3 t = ((cfg0.win 3).blk t).view.read (Elt Ideal) (outG m c) := by
  have hN : t.val < 512 := lt_of_lt_of_eq t.isLt N_0
  have h1 : t.val % 256 = 255 := (flush0_3 t).mp hf
  funext y
  show (dats m 0 c).after 3 t ((cfg0.win 3).xinj (grid0.coords t) y) = _
  rw [after0_3, out_eq m c t h1, View.read_apply]
  show _ = runSum (tiles m c) ((((cfg0.win 3).blk t).view.emb y 0).val * 256 + 255)
  have he : (((cfg0.win 3).blk t).view.emb y 0).val = t.val / 256 := by
    have hy : (y 0).val < 1 := (y 0).isLt
    show win0_3.index t 0 * 1 + 1 * (y 0).val = t.val / 256
    rw [(idx3 t).1]; omega
  rw [he]
  congr 1
  omega

/-- The two runs' last points cover the [2,1,1] array. -/
theorem final_out (c : Dev nD) : (dats m 0 c).arrAt 3 cfg0.N = outG m c :=
  (dats m 0 c).arrAt_eq_of_cover 3 (outG m c) (flushed_eq m c) fun i => by
    have hi0 : (i 0).val < 2 := (i 0).isLt
    have hi1 : (i 1).val < 1 := (i 1).isLt
    have hi2 : (i 2).val < 1 := (i 2).isLt
    have hlt : (i 0).val * 256 + 255 < cfg0.N := by rw [show cfg0.N = 512 from N_0]; omega
    refine ⟨⟨(i 0).val * 256 + 255, hlt⟩, (flush0_3 _).mpr (by show ((i 0).val * 256 + 255) % 256 = 255; omega), ?_⟩
    show i ∈ ((View.whole main_v1).slice (win0_3.rect ⟨(i 0).val * 256 + 255, hlt⟩)).set
    rw [View.set_slice_whole, Rect.mem_set_unit]
    intro a
    match a with
    | ⟨0, _⟩ =>
      show win0_3.index ⟨(i 0).val * 256 + 255, hlt⟩ 0 * 1 ≤ (i 0).val ∧ (i 0).val < win0_3.index ⟨(i 0).val * 256 + 255, hlt⟩ 0 * 1 + 1
      rw [(idx3 ⟨(i 0).val * 256 + 255, hlt⟩).1]
      show ((i 0).val * 256 + 255) / 256 * 1 ≤ (i 0).val ∧ (i 0).val < ((i 0).val * 256 + 255) / 256 * 1 + 1
      omega
    | ⟨1, _⟩ =>
      show win0_3.index ⟨(i 0).val * 256 + 255, hlt⟩ 1 * 1 ≤ (i 1).val ∧ (i 1).val < win0_3.index ⟨(i 0).val * 256 + 255, hlt⟩ 1 * 1 + 1
      rw [(idx3 ⟨(i 0).val * 256 + 255, hlt⟩).2.1]; omega
    | ⟨2, _⟩ =>
      show win0_3.index ⟨(i 0).val * 256 + 255, hlt⟩ 2 * 1 ≤ (i 2).val ∧ (i 2).val < win0_3.index ⟨(i 0).val * 256 + 255, hlt⟩ 2 * 1 + 1
      rw [(idx3 ⟨(i 0).val * 256 + 255, hlt⟩).2.2]; omega

end Cert.KernelIdeal.KValue

end
-- ==== Proof.KRun.lean ====
/-
  The idealized kernel's run: its result is the loss of the specification, its arguments end unchanged.

  After the launch the result array holds the two runs' sums; the host then adds its two entries from zero and divides by
  the row count. The two runs' sums add up to the sum over all rows (the rows cut into 2 · 256 tiles of 8192).
-/
import proofs.«411149_j26903675142293_2_alg».proof.Proof.KValue

set_option maxRecDepth 16384

noncomputable section

namespace Cert.KernelIdeal.KRun

open Idealize.ShloMosaic Idealize.ShloMosaic.TcCoe Idealize.SL.Sem Idealize.ShloMosaic.ValueIdx
open Idealize.ShloMosaic.Pipeline (Dat)
open Cert.KernelIdeal Cert.KernelIdeal.Gen Cert.MutCE Cert.KernelIdeal.KValue

variable (m : (ℓ : Loc nD τ sig) → Buf (Elt Ideal) ℓ) (ρ : Dev nD → PrngReg)

/-- The [2,1,1] array's indices are its first coordinate. -/
def runIdx : Fin 2 ≃ S2x1x1.Idx where
  toFun p := ix3 p (0 : Fin 1) (0 : Fin 1)
  invFun i := i 0
  left_inv _ := rfl
  right_inv i := by
    have h1 : (0 : Fin 1) = (i 1 : Fin 1) := Subsingleton.elim _ _
    have h2 : (0 : Fin 1) = (i 2 : Fin 1) := Subsingleton.elim _ _
    exact (congrArg₂ (fun a b : Fin 1 => ix3 (i 0 : Fin 2) a b) h1 h2).trans (eq_ix3 i).symm

/-- The entries of the result array add up to the sum over all rows. -/
theorem out_sum (c : Dev nD) : ∑ i : S2x1x1.Idx, outG m c i = total (argX m c) (argT m c) (argM m c) := by
  rw [total_eq_runs]
  exact (Equiv.sum_comp runIdx (outG m c)).symm

/-- The host operations after the launch, read over the extended reals. -/
theorem tail_eq (c : Dev nD) :
    Pipeline.afterTail₀ cfgs (dats m) 0 (V0 m) [hostOps1] c main_v3 = fun _ => loss (argX m c) (argT m c) (argM m c) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v1)
      = outG m c :=
    (Pipeline.withArrays_arr spec0 launch0.win.arr_inj c _ _ 3).trans (final_out m c)
  rw [hw]
  funext i
  have hr : Host.reduceAdd (F := Ideal) (outG m c) (constant S_ .f32 0x00000000#32) reducesTo_S2x1x1_S_d0_1_2 h_S_ i
      = total (argX m c) (argT m c) (argM m c) := by
    simp only [Host.reduceAdd, Ideal.hostReduceAdd_def]
    refine (Ideal.hostReduceAdd_total reducesTo_S2x1x1_S_d0_1_2 (fun b => b.elim0) (outG m c) _ i).trans ?_
    rw [out_sum]
    show Ideal.ofBits .f32 0x00000000#32 + _ = _
    rw [Ideal.ofBits_zero_f32, zero_add]
  show Ideal.div (Host.reduceAdd (F := Ideal) (outG m c) (constant S_ .f32 0x00000000#32) reducesTo_S2x1x1_S_d0_1_2 h_S_ i) _ = _
  rw [hr]
  rfl

/-- THE KERNEL'S RUN: every execution ends with the result at the loss and the three arguments as launched. -/
theorem run : θ_run defs (onTc (τ := τ) (main (F := Ideal))) ⟨m, fun _ => 0, ρ⟩ (fun r => ∀ c : Dev nD,
      r.2.mem ((c.tc : Thread nD τ).loc main_v3) = (fun _ => loss (argX m c) (argT m c) (argM m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.KRun

end
-- ==== Proof.LibRowGather.lean ====
/-
  Rows of a table taken at a column of start indices (jnp's  table[idx]  on a matrix): the result's row p is the
  table's row at  idx[p, 0] , read as a signed integer and clamped into the table; and NumPy's treatment of a
  negative index (add the extent) followed by that clamp does nothing to an index already in range.
-/
import Idealize.ShloMosaic.PureOps
import Idealize.ShloMosaic.Lib.ValueIdx
import Idealize.ShloMosaic.Lib.StableHlo.Predicate

noncomputable section

open Idealize.ShloMosaic Idealize.ShloMosaic.ValueIdx

namespace Cert.RowGather

variable {α : Type}

/-- The dimension numbers of  table[idx]  for a [T, C] table and an [N, 1] column of start indices: axis 0 collapsed
    and indexed, axis 1 an offset axis taken whole. -/
abbrev rowsDims (T C N : ℕ)
    (wf : GatherDims.WF ⟨2, ![T, C]⟩ ⟨2, ![N, 1]⟩ ⟨2, ![N, C]⟩ [1] [0] [] [0] [] 1 ![1, C]) :
    GatherDims ⟨2, ![T, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (p, k): the table at row  idx[p, 0]  (signed, clamped into [0, T − 1]) and column k. -/
theorem gather_rows_apply {T C N w : ℕ} (hT : 0 < T)
    (wf : GatherDims.WF ⟨2, ![T, C]⟩ ⟨2, ![N, 1]⟩ ⟨2, ![N, C]⟩ [1] [0] [] [0] [] 1 ![1, C])
    (x : (⟨2, ![T, C]⟩ : Shape).Idx → α) (idx : IVec ⟨2, ![N, 1]⟩ w) (p : Fin N) (k : Fin C) :
    Host.gather (rowsDims T C N wf) x idx (ix2 p k)
      = x (ix2 ⟨min (idx (ix2 p 0)).toInt.toNat (T - 1), by omega⟩ k) := by
  unfold Host.gather
  congr 1
  funext a
  refine Fin.ext ?_
  match a with
  | ⟨0, _⟩ =>
    show (rowsDims T C N wf).start (ix2 p k) idx 0 + (rowsDims T C N wf).batchCoord (ix2 p k) 0
      + (rowsDims T C N wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims T C N wf).startIndexMap from List.mem_singleton.mpr rfl)]
    have hsi : (rowsDims T C N wf).siIdx (ix2 p k) ⟨List.idxOf (0 : Fin 2) (rowsDims T C N wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    have h10 : (1 : Fin 2) ∉ ([0] : List (Fin 2)) := by decide
    show (rowsDims T C N wf).start (ix2 p k) idx 1 + (rowsDims T C N wf).batchCoord (ix2 p k) 1
      + (rowsDims T C N wf).offCoord (ix2 p k) 1 = k.val
    rw [GatherDims.batchCoord_eq_zero _ _ _ List.not_mem_nil]
    unfold GatherDims.start
    rw [dif_neg (show (1 : Fin 2) ∉ (rowsDims T C N wf).startIndexMap from h10)]
    unfold GatherDims.offCoord
    rw [dif_pos (show (1 : Fin 2) ∈ (rowsDims T C N wf).sKept from
      (GatherDims.mem_sKept _ _).mpr ⟨h10, List.not_mem_nil⟩)]
    simp only [Nat.zero_add, Nat.add_zero]
    rfl

/-- A start index already in [0, T): adding the extent when negative and clamping leave its value. -/
theorem wrap_clamp (a n : BitVec 32) (T : ℕ) (ha : a.toNat < T) (hT : T ≤ 2 ^ 31) :
    min (Scalar.select (IntOp.cmpi .slt a 0#32) (IntOp.addi a n) a).toInt.toNat (T - 1) = a.toNat := by
  have ha31 : a.toNat < 2 ^ 31 := by omega
  have h0 : (0#32).toNat < 2 ^ 31 := by decide
  have hc : ¬ IntOp.cmpi .slt a 0#32 = 1 := by
    intro h
    have hlt := (StableHlo.Predicate.slt_iff_toNat ha31 h0).mp h
    simp at hlt
  unfold Scalar.select
  rw [if_neg hc, StableHlo.Predicate.toInt_eq_toNat_of_lt ha31, Int.toNat_natCast]
  omega

end Cert.RowGather

end
-- ==== Proof.RefSpec.lean ====
/-
  The reference's result, read stage by stage, is the loss of the specification when every label is a class number.

  Row by row the host computes the same log-softmax (its maximum a reduction with a maximum body from −∞, its sum a
  reduction from zero), takes the matrix row the label names — after NumPy's rule for a negative index and the gather's
  clamp, both of which leave a label in [0, 30) alone —, multiplies, sums, negates, masks the label 0 and sums over
  all rows from zero before the division by the row count.
-/
import proofs.«411149_j26903675142293_2_alg».proof.Proof.RefRead
import proofs.«411149_j26903675142293_2_alg».proof.Proof.Spec
import proofs.«411149_j26903675142293_2_alg».proof.Proof.LibRowGather
import Idealize.ShloMosaic.Lib.ValueIdxRank1
import Idealize.ShloMosaic.PureOps.Ideal.Laws
import Idealize.ShloMosaic.Lib.StableHlo.Predicate

noncomputable section

namespace Cert.ReferenceIdeal.RefSpec

open Idealize.ShloMosaic Idealize.ShloMosaic.ValueIdx Cert.ReferenceIdeal Cert.ReferenceIdeal.Gen Cert.ReferenceIdeal.ReadP Cert.MutCE

variable (X : FVec Ideal S4194304x30 .f32) (T : IVec S4194304 32) (M : FVec Ideal S30x30 .f32)

/-- The shape relation of a row reduction, in the form that names the index with a column put back. -/
theorem redRow : S4194304x30.Reduces [1] S4194304 := by decide

theorem lift_row (r : Fin 4194304) (k : Fin 30) : redRow.lift (ix1 r) k = ix2 r k :=
  funext fun a => Fin.ext (by match a with | ⟨0, _⟩ => rfl | ⟨1, _⟩ => rfl)

/-- The host's row maximum. -/
theorem hostRowMax (r : Fin 4194304) :
    val_main_call0_v2 (F := Ideal) X (ix1 r) = rowMax (fun k => X (ix2 r k)) := by
  rw [val_main_call0_v2_apply, val_main_call0_v1_apply, val_main_call0_cst_0_apply]
  unfold val_main_call0_v0 rowMax
  refine congrArg (max negInf ·) ?_
  refine (Host.reduce_eq_fold_single FloatOps.maximumf X _ reducesTo_S4194304x30_S4194304_d1 redRow h_S_ (ix1 r)).trans ?_
  have h2 : (X ∘ redRow.lift (ix1 r)) = fun k : Fin 30 => X (ix2 r k) := funext fun k => congrArg X (lift_row r k)
  rw [h2]
  rfl

/-- The logits less their row's maximum, on the host. -/
theorem hostShift (r : Fin 4194304) (j : Fin 30) :
    val_main_call0_v5 (F := Ideal) X (ix2 r j) = X (ix2 r j) - rowMax (fun k => X (ix2 r k)) := by
  rw [val_main_call0_v5_apply, val_main_call0_v4_apply, val_main_call0_v3_apply]
  have e : idx_main_call0_v3 (idx_main_call0_v4 (ix2 r j)) = ix1 r :=
    funext fun a => Fin.ext (by match a with | ⟨0, _⟩ => rfl)
  rw [e, hostRowMax]
  rfl

/-- The host's log-softmax. -/
theorem hostLogp (r : Fin 4194304) (j : Fin 30) :
    val_main_v0 (F := Ideal) X (ix2 r j) = logp (fun k => X (ix2 r k)) j := by
  rw [val_main_v0_apply, hostShift, val_main_call0_v10_apply, val_main_call0_v9_apply, val_main_call0_v8_apply]
  have e : idx_main_call0_v8 (idx_main_call0_v10 (ix2 r j)) = ix1 r :=
    funext fun a => Fin.ext (by match a with | ⟨0, _⟩ => rfl)
  rw [e, val_main_call0_v7_apply, val_main_call0_cst_1_apply]
  unfold logp
  show _ - Ideal.log (Ideal.ofBits .f32 0x00000000#32 + _) = _
  rw [Ideal.ofBits_zero_f32, zero_add]
  refine congrArg (fun z => _ - Ideal.log z) (Finset.sum_congr rfl fun k _ => ?_)
  have e3 : idx_main_call0_v7 (ix1 r) k = ix2 r k :=
    funext fun a => Fin.ext (by match a with | ⟨0, _⟩ => rfl | ⟨1, _⟩ => rfl)
  rw [e3, val_main_call0_v6_apply, hostShift]
  rfl

/-- "The label where it is not 0, else 0" is the label. -/
theorem safe_eq (t : BitVec 32) : Scalar.select (IntOp.cmpi .ne t 0#32) t 0#32 = t := by
  unfold Scalar.select
  split
  · rfl
  · rename_i h
    have h' : ¬ BitVec.ofBool (t != 0#32) = 1#1 := h
    rw [StableHlo.Predicate.ofBool_eq_one_iff] at h'
    simp at h'
    exact h'.symm

/-- The start index the gather is given for row r: the label after NumPy's rule for negative indices. -/
theorem hostStart (r : Fin 4194304) :
    val_main_v9 (F := Ideal) T (ix2 r (0 : Fin 1))
      = Scalar.select (IntOp.cmpi .slt (T (ix1 r)) 0#32) (IntOp.addi (T (ix1 r)) 30#32) (T (ix1 r)) := by
  rw [val_main_v9_apply]
  have e : idx_main_v9 (ix2 r (0 : Fin 1)) = ix1 r := funext fun a => Fin.ext (by match a with | ⟨0, _⟩ => rfl)
  rw [e, val_main_v8_apply, val_main_v5_apply, val_main_v7_apply, val_main_v3_apply, val_main_v2_apply, val_main_v1_apply,
    val_main_c_apply, val_main_call1_v1_apply, val_main_call1_v0_apply, val_main_c_0_apply, val_main_v4_apply,
    val_main_c_1_apply, val_main_v6_apply, val_main_c_2_apply, safe_eq]

/-- The matrix row the host gathers for a label in range is the specification's weight row. -/
theorem hostWeight (r : Fin 4194304) (j : Fin 30) (hT : (T (ix1 r)).toNat < 30) :
    val_main_v10 (F := Ideal) T M (ix2 r j) = weight M (T (ix1 r)) j := by
  unfold val_main_v10 weight
  rw [dif_pos hT]
  rw [show gather_S30x30_S4194304x1_S4194304x30_1_0_n_n_0_1_130
      = Cert.RowGather.rowsDims 30 30 4194304 gather_S30x30_S4194304x1_S4194304x30_1_0_n_n_0_1_130_wf from rfl]
  rw [Cert.RowGather.gather_rows_apply (by decide)]
  refine congrArg (fun p => M (ix2 p j)) (Fin.ext ?_)
  show min (val_main_v9 (F := Ideal) T (ix2 r (0 : Fin 1))).toInt.toNat (30 - 1) = (T (ix1 r)).toNat
  rw [hostStart]
  exact Cert.RowGather.wrap_clamp (T (ix1 r)) 30#32 30 hT (by norm_num)

/-- One row of the host's masked losses is the specification's row loss. -/
theorem hostRow (r : Fin 4194304) (hT : (T (ix1 r)).toNat < 30) :
    val_main_v14 (F := Ideal) X T M (ix1 r) = lossAt X T M r := by
  rw [val_main_v14_apply, val_main_v2_apply, val_main_v1_apply, val_main_c_apply, val_main_call2_v1_apply,
    val_main_call2_v0_apply, val_main_cst_3_apply, val_main_v13_apply, val_main_v12_apply, val_main_cst_apply]
  unfold lossAt rowLoss
  show Scalar.select _ (-(Ideal.ofBits .f32 0x00000000#32 + _)) (Ideal.ofBits .f32 0x00000000#32) = _
  rw [Ideal.ofBits_zero_f32, zero_add]
  refine congrArg (fun z => Scalar.select _ (-z) 0) (Finset.sum_congr rfl fun k _ => ?_)
  have e3 : idx_main_v12 (ix1 r) k = ix2 r k :=
    funext fun a => Fin.ext (by match a with | ⟨0, _⟩ => rfl | ⟨1, _⟩ => rfl)
  rw [e3, val_main_v11_apply, hostWeight T M r k hT, hostLogp]
  rfl

/-- THE REFERENCE: with every label in [0, 30) its result is the specification's loss. -/
theorem hostLoss (hT : ∀ r : Fin 4194304, (T (ix1 r)).toNat < 30) (i : S_.Idx) :
    val_main_v16 (F := Ideal) X T M i = loss X T M := by
  have hs : (∑ j : S4194304.Idx, val_main_v14 (F := Ideal) X T M j) = total X T M := by
    unfold total
    refine (Equiv.sum_comp (idxEquiv1 (n := 4194304)).symm _).symm.trans (Finset.sum_congr rfl fun r _ => ?_)
    exact hostRow X T M r (hT r)
  rw [val_main_v16_apply, val_main_v15_apply, val_main_cst_4_apply, val_main_cst_5_apply, hs]
  unfold loss
  show Ideal.div (Ideal.ofBits .f32 0x00000000#32 + _) _ = _
  rw [Ideal.ofBits_zero_f32, zero_add]
  rfl

end Cert.ReferenceIdeal.RefSpec

end
-- ==== Proof.PreRange.lean ====
/-
  What the precondition says about the labels: every label is a class number, 0 ≤ t < 30.

  The printed precondition is a conjunction of four "all" tests; the last two say that every label is at least 0 and
  below 30 as a signed 32-bit integer. Such a label's unsigned value is then below 30 as well, which is the form in
  which the two programs' row choices are compared.
-/
import proofs.«411149_j26903675142293_2_alg».proof.Pre_finite_inputs
import proofs.«411149_j26903675142293_2_alg».proof.Proof.Gen.Pre_finite_inputs
import Idealize.ShloMosaic.Lib.ReduceAll
import Idealize.ShloMosaic.Lib.StableHlo.Predicate
import Idealize.ShloMosaic.Lib.ValueIdx

noncomputable section

namespace Cert.MutCE.PreRange

open Idealize.ShloMosaic Idealize.ShloMosaic.ValueIdx Cert.Pre_finite_inputs

/-- A signed word that is at least 0 and below 30 has an unsigned value below 30. -/
theorem range_of (a : BitVec 32) (h0 : IntOp.cmpi .sge a 0#32 = 1#1) (h1 : IntOp.cmpi .slt a 30#32 = 1#1) :
    a.toNat < 30 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e30 : (30#32 : BitVec 32).toInt = 30 := by decide
  rw [e0] at h0
  rw [e30] at h1
  have hc := BitVec.toInt_eq_toNat_cond a
  have hlt := a.isLt
  split at hc <;> omega

instance : Subsingleton S_.Idx := ⟨fun a b => funext fun d => d.elim0⟩

/-- Under the precondition every label lies in [0, 30). -/
theorem label_range {F : FTy → Type} [FloatOps F] (X : FVec F S4194304x30 .f32) (T : IVec S4194304 32)
    (M : FVec F S30x30 .f32) (h : Cert.Pre_finite_inputs.fn (F := F) X T M = fun _ => 1#1) (r : Fin 4194304) :
    (T (ix1 r)).toNat < 30 := by
  have h0 := congrFun h ix0
  dsimp only [Cert.Pre_finite_inputs.fn, Cert.Pre_finite_inputs.fn_part1] at h0
  obtain ⟨h12, h15⟩ := IntOp.andi_eq_one.1 h0
  obtain ⟨_, h11⟩ := IntOp.andi_eq_one.1 h12
  have hge := Host.reduce_andi_all _ _ _ _ ix0 h11 (ix1 r)
  have hlt := Host.reduce_andi_all _ _ _ _ ix0 h15 (ix1 r)
  refine range_of (T (ix1 r)) ?_ ?_
  · exact hge
  · exact hlt

end Cert.MutCE.PreRange

end
-- ==== Proof.lean ====
/- The proof of `Cert.Claim`: a mutation-weighted cross-entropy loss.

   Both programs compute  (Σ_r [t_r ≠ 0] · (−Σ_j M[t_r, j] · log_softmax(x_r)_j)) / 2²²  over 4,194,304 rows of 30 logits,
   labels t_r and a 30 × 30 matrix M. The kernel takes the matrix row through a one-hot product — which over the
   extended reals is row t_r exactly, since 0 · x = 0 and 1 · x = x for every x — and accumulates the row losses tile by
   tile in a running-sum cell, one run of 256 tiles of 8192 rows per grid row, the host adding the two runs' sums; the
   reference gathers the row and sums all rows at once. With every label a class number (0 ≤ t < 30, which the
   precondition says) the gather's row is the one-hot product's row, and the two sums are one sum of the same terms
   grouped differently; addition on the extended reals is commutative and associative, so nothing needs to be finite.

   The three frames are the programs' runs with their results dropped; nothing was rewritten by the ideal pass. -/
import proofs.«411149_j26903675142293_2_alg».proof.Defs
import proofs.«411149_j26903675142293_2_alg».proof.Proof.Gen.Kernel
import proofs.«411149_j26903675142293_2_alg».proof.Proof.Gen.Kernel.Skeleton
import proofs.«411149_j26903675142293_2_alg».proof.Proof.Gen.Kernel.Launch
import proofs.«411149_j26903675142293_2_alg».proof.Proof.Gen.Kernel.Points
import proofs.«411149_j26903675142293_2_alg».proof.Proof.Gen.Kernel.Frame
import proofs.«411149_j26903675142293_2_alg».proof.Proof.Gen.KernelIdeal
import proofs.«411149_j26903675142293_2_alg».proof.Proof.Gen.KernelIdeal.Skeleton
import proofs.«411149_j26903675142293_2_alg».proof.Proof.Gen.KernelIdeal.Launch
import proofs.«411149_j26903675142293_2_alg».proof.Proof.Gen.KernelIdeal.Points
import proofs.«411149_j26903675142293_2_alg».proof.Proof.Gen.KernelIdeal.Frame
import proofs.«411149_j26903675142293_2_alg».proof.Proof.Gen.ReferenceIdeal
import proofs.«411149_j26903675142293_2_alg».proof.Proof.RefRead
import proofs.«411149_j26903675142293_2_alg».proof.Proof.Gen.Pre_finite_inputs
import proofs.«411149_j26903675142293_2_alg».proof.Proof.KRun
import proofs.«411149_j26903675142293_2_alg».proof.Proof.RefSpec
import proofs.«411149_j26903675142293_2_alg».proof.Proof.PreRange
import Idealize.ShloMosaic.Adequacy
import Idealize.ShloMosaic.Init

noncomputable section

namespace Cert.Proof

open Idealize.ShloMosaic Idealize.ShloMosaic.TcCoe Idealize.SL.Sem Idealize.ShloMosaic.ValueIdx Cert.MutCE

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the three arguments, both programs end at the loss of the specification: the kernel by its
    run, the reference by its run read stage by stage under the labels' range, which the precondition gives. -/
theorem algebraic : Cert.algebraic_KernelIdeal_ReferenceIdeal := by
  intro m ρ m' ρ' hpre hagree
  refine ⟨fun c => fun _ => loss (Cert.KernelIdeal.KValue.argX m c) (Cert.KernelIdeal.KValue.argT m c)
    (Cert.KernelIdeal.KValue.argM m c), Cert.KernelIdeal.KRun.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v16_eq, (hagree c).1, (hagree c).2.1, (hagree c).2.2]
  funext i
  exact Cert.ReferenceIdeal.RefSpec.hostLoss _ _ _
    (fun r => Cert.MutCE.PreRange.label_range _ _ _ (hpre c) r) i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
